-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S27x64x64 : Shape := ⟨3, ![27, 64, 64]⟩
abbrev S64 : Shape := ⟨1, ![64]⟩
abbrev S27x60000 : Shape := ⟨2, ![27, 60000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S200000x64 .f32) (main_arg1 : FVec F S27x64x64 .f32) (main_arg2 : FVec F S64 .f32) (main_arg3 : IVec S27x60000 32) (main_arg4 : IVec S27x60000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S200000x64 : Shape := ⟨2, ![200000, 64]⟩
abbrev S27x64x64 : Shape := ⟨3, ![27, 64, 64]⟩
abbrev S64 : Shape := ⟨1, ![64]⟩
abbrev S27x60000 : Shape := ⟨2, ![27, 60000]⟩
abbrev S1620000 : Shape := ⟨1, ![1620000]⟩
abbrev S_ : Shape := ⟨0, ![]⟩
abbrev S1620000x1 : Shape := ⟨2, ![1620000, 1]⟩
abbrev S1620000x64 : Shape := ⟨2, ![1620000, 64]⟩
abbrev S27x60000x64 : Shape := ⟨3, ![27, 60000, 64]⟩
abbrev S1x15000x64 : Shape := ⟨3, ![1, 15000, 64]⟩
abbrev S1x64x64 : Shape := ⟨3, ![1, 64, 64]⟩
abbrev S15000x64 : Shape := ⟨2, ![15000, 64]⟩
abbrev S64x64 : Shape := ⟨2, ![64, 64]⟩
abbrev S10000x64 : Shape := ⟨2, ![10000, 64]⟩
abbrev S1x64 : Shape := ⟨2, ![1, 64]⟩

abbrev nBuf : Space → Nat
  | .hbm => 33
  | .vmem => 11
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S64, .f32⟩
  | .hbm, ⟨3, _⟩ => ⟨S27x60000, .i32⟩
  | .hbm, ⟨4, _⟩ => ⟨S27x60000, .i32⟩
  | .hbm, ⟨5, _⟩ => ⟨S200000x64, .bf16⟩
  | .hbm, ⟨6, _⟩ => ⟨S27x64x64, .bf16⟩
  | .hbm, ⟨7, _⟩ => ⟨S1620000, .i32⟩
  | .hbm, ⟨8, _⟩ => ⟨S_, .i32⟩
  | .hbm, ⟨9, _⟩ => ⟨S1620000, .i32⟩
  | .hbm, ⟨10, _⟩ => ⟨S1620000, .i1⟩
  | .hbm, ⟨11, _⟩ => ⟨S_, .i32⟩
  | .hbm, ⟨12, _⟩ => ⟨S1620000, .i32⟩
  | .hbm, ⟨13, _⟩ => ⟨S1620000, .i32⟩
  | .hbm, ⟨14, _⟩ => ⟨S1620000, .i32⟩
  | .hbm, ⟨15, _⟩ => ⟨S1620000x1, .i32⟩
  | .hbm, ⟨16, _⟩ => ⟨S1620000x64, .bf16⟩
  | .hbm, ⟨17, _⟩ => ⟨S27x60000x64, .bf16⟩
  | .hbm, ⟨18, _⟩ => ⟨S27x60000x64, .f32⟩
  | .hbm, ⟨19, _⟩ => ⟨S1620000x64, .f32⟩
  | .hbm, ⟨20, _⟩ => ⟨S1620000, .i32⟩
  | .hbm, ⟨21, _⟩ => ⟨S_, .f32⟩
  | .hbm, ⟨22, _⟩ => ⟨S200000x64, .f32⟩
  | .hbm, ⟨23, _⟩ => ⟨S_, .i32⟩
  | .hbm, ⟨24, _⟩ => ⟨S1620000, .i32⟩
  | .hbm, ⟨25, _⟩ => ⟨S1620000, .i1⟩
  | .hbm, ⟨26, _⟩ => ⟨S_, .i32⟩
  | .hbm, ⟨27, _⟩ => ⟨S1620000, .i32⟩
  | .hbm, ⟨28, _⟩ => ⟨S1620000, .i32⟩
  | .hbm, ⟨29, _⟩ => ⟨S1620000, .i32⟩
  | .hbm, ⟨30, _⟩ => ⟨S1620000x1, .i32⟩
  | .hbm, ⟨31, _⟩ => ⟨S200000x64, .f32⟩
  | .hbm, ⟨32, _⟩ => ⟨S200000x64, .f32⟩
  | .local _ .vmem, ⟨0, _⟩ => ⟨S1x15000x64, .bf16⟩
  | .local _ .vmem, ⟨1, _⟩ => ⟨S1x15000x64, .bf16⟩
  | .local _ .vmem, ⟨2, _⟩ => ⟨S1x64x64, .bf16⟩
  | .local _ .vmem, ⟨3, _⟩ => ⟨S1x64x64, .bf16⟩
  | .local _ .vmem, ⟨4, _⟩ => ⟨S1x15000x64, .f32⟩
  | .local _ .vmem, ⟨5, _⟩ => ⟨S1x15000x64, .f32⟩
  | .local _ .vmem, ⟨6, _⟩ => ⟨S10000x64, .f32⟩
  | .local _ .vmem, ⟨7, _⟩ => ⟨S10000x64, .f32⟩
  | .local _ .vmem, ⟨8, _⟩ => ⟨S64, .f32⟩
  | .local _ .vmem, ⟨9, _⟩ => ⟨S10000x64, .f32⟩
  | .local _ .vmem, ⟨10, _⟩ => ⟨S10000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![27, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x15000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x15000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  shapeCasts_S27x60000_S1620000 : S27x60000.ShapeCasts S1620000
  bcast_S_S1620000 : S_.BroadcastsInDim S1620000 (![] : Fin 0 → Fin S1620000.rank)
  bcast_S1620000_S1620000x1_0 : S1620000.BroadcastsInDim S1620000x1 (![0] : Fin 1 → Fin S1620000x1.rank)
  shapeCasts_S1620000x64_S27x60000x64 : S1620000x64.ShapeCasts S27x60000x64
  inb_S1x15000x64_S1x15000x64_0_0_0 : ∀ a, (![0, 0, 0] : Fin 3 → Nat) a + S1x15000x64.size a ≤ S1x15000x64.size a
  h_S1x15000x64 : 0 < S1x15000x64.numel
  shapeCasts_S1x15000x64_S15000x64 : S1x15000x64.ShapeCasts S15000x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S15000x64_S1x15000x64 : S15000x64.ShapeCasts S1x15000x64
  shapeCasts_S27x60000x64_S1620000x64 : S27x60000x64.ShapeCasts S1620000x64
  bcast_S_S200000x64 : S_.BroadcastsInDim S200000x64 (![] : Fin 0 → Fin S200000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  gather_S200000x64_S1620000x1_S1620000x64_1_0_n_n_0_1_164_wf : GatherDims.WF S200000x64 S1620000x1 S1620000x64 [1] [0] [] [0] [] 1 ![1, 64]
  dot_S15000x64_S64x64_S15000x64_1_0_0_1_n_n_wf : DotDims.WF S15000x64 S64x64 S15000x64 [1] [0] [0] [1] [] []
  scatter_S200000x64_S1620000x1_S1620000x64_1_0_0_1_wf : ScatterDims.WF S200000x64 S1620000x1 S1620000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x15000x64.size a ≤ S27x60000x64.size a
  hwx0_0 : ∀ i : grid0.Coords, EltTy.bits .bf16 = 32 ∨ (Rect.block (s := S27x60000x64) S1x15000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .bf16 = 32 ∨ (Rect.block (s := S27x64x64) S1x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x15000x64.size a ≤ S27x60000x64.size a
  hwx0_2 : ∀ i : grid0.Coords, EltTy.bits .f32 = 32 ∨ (Rect.block (s := S27x60000x64) S1x15000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S200000x64.size a
  hwx1_0 : ∀ i : grid1.Coords, EltTy.bits .f32 = 32 ∨ (Rect.block (s := S200000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S200000x64.size a
  hwx1_2 : ∀ i : grid1.Coords, EltTy.bits .f32 = 32 ∨ (Rect.block (s := S200000x64) S10000x64.size (cc1_transform_2 i) (hinb1_2 i)).WholeWords (EltTy.packing .f32)

variable [Facts₀]

def gather_S200000x64_S1620000x1_S1620000x64_1_0_n_n_0_1_164 : GatherDims S200000x64 S1620000x1 S1620000x64 where
  offsetDims := [1]
  collapsedSliceDims := [0]
  operandBatchingDims := []
  startIndicesBatchingDims := []
  startIndexMap := [0]
  indexVectorDim := 1
  sliceSizes := ![1, 64]
  wf := gather_S200000x64_S1620000x1_S1620000x64_1_0_n_n_0_1_164_wf
def dot_S15000x64_S64x64_S15000x64_1_0_0_1_n_n : DotDims S15000x64 S64x64 S15000x64 where
  lhsContracting := [1]
  rhsContracting := [0]
  lhsNonContracting := [0]
  rhsNonContracting := [1]
  lhsBatch := []
  rhsBatch := []
  wf := dot_S15000x64_S64x64_S15000x64_1_0_0_1_n_n_wf
def scatter_S200000x64_S1620000x1_S1620000x64_1_0_0_1 : ScatterDims S200000x64 S1620000x1 S1620000x64 where
  updateWindowDims := [1]
  insertedWindowDims := [0]
  scatterDimsToOperandDims := [0]
  indexVectorDim := 1
  wf := scatter_S200000x64_S1620000x1_S1620000x64_1_0_0_1_wf

abbrev win0_0 : Pipeline.Window sig grid0 :=
  Pipeline.Window.ofSpec (Memref.whole main_v10) S1x15000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x15000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x64 : Shape := ⟨2, ![200000, 64]⟩
abbrev S27x64x64 : Shape := ⟨3, ![27, 64, 64]⟩
abbrev S64 : Shape := ⟨1, ![64]⟩
abbrev S27x60000 : Shape := ⟨2, ![27, 60000]⟩
abbrev S_ : Shape := ⟨0, ![]⟩
abbrev S27x60000x1 : Shape := ⟨3, ![27, 60000, 1]⟩
abbrev S27x60000x64 : Shape := ⟨3, ![27, 60000, 64]⟩
abbrev S1620000 : Shape := ⟨1, ![1620000]⟩
abbrev S1620000x64 : Shape := ⟨2, ![1620000, 64]⟩
abbrev S1620000x1 : Shape := ⟨2, ![1620000, 1]⟩
abbrev S1x64 : Shape := ⟨2, ![1, 64]⟩

abbrev nBuf : Space → Nat
  | .hbm => 34
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S64, .f32⟩
  | .hbm, ⟨3, _⟩ => ⟨S27x60000, .i32⟩
  | .hbm, ⟨4, _⟩ => ⟨S27x60000, .i32⟩
  | .hbm, ⟨5, _⟩ => ⟨S_, .i32⟩
  | .hbm, ⟨6, _⟩ => ⟨S27x60000, .i32⟩
  | .hbm, ⟨7, _⟩ => ⟨S27x60000, .i1⟩
  | .hbm, ⟨8, _⟩ => ⟨S_, .i32⟩
  | .hbm, ⟨9, _⟩ => ⟨S27x60000, .i32⟩
  | .hbm, ⟨10, _⟩ => ⟨S27x60000, .i32⟩
  | .hbm, ⟨11, _⟩ => ⟨S27x60000, .i32⟩
  | .hbm, ⟨12, _⟩ => ⟨S27x60000x1, .i32⟩
  | .hbm, ⟨13, _⟩ => ⟨S27x60000x64, .f32⟩
  | .hbm, ⟨14, _⟩ => ⟨S27x60000x64, .f32⟩
  | .hbm, ⟨15, _⟩ => ⟨S_, .f32⟩
  | .hbm, ⟨16, _⟩ => ⟨S200000x64, .f32⟩
  | .hbm, ⟨17, _⟩ => ⟨S1620000, .i32⟩
  | .hbm, ⟨18, _⟩ => ⟨S1620000x64, .f32⟩
  | .hbm, ⟨19, _⟩ => ⟨S_, .i32⟩
  | .hbm, ⟨20, _⟩ => ⟨S1620000, .i32⟩
  | .hbm, ⟨21, _⟩ => ⟨S1620000, .i1⟩
  | .hbm, ⟨22, _⟩ => ⟨S_, .i32⟩
  | .hbm, ⟨23, _⟩ => ⟨S1620000, .i32⟩
  | .hbm, ⟨24, _⟩ => ⟨S1620000, .i32⟩
  | .hbm, ⟨25, _⟩ => ⟨S1620000, .i32⟩
  | .hbm, ⟨26, _⟩ => ⟨S1620000x1, .i32⟩
  | .hbm, ⟨27, _⟩ => ⟨S200000x64, .f32⟩
  | .hbm, ⟨28, _⟩ => ⟨S1x64, .f32⟩
  | .hbm, ⟨29, _⟩ => ⟨S200000x64, .f32⟩
  | .hbm, ⟨30, _⟩ => ⟨S200000x64, .f32⟩
  | .hbm, ⟨31, _⟩ => ⟨S_, .f32⟩
  | .hbm, ⟨32, _⟩ => ⟨S200000x64, .f32⟩
  | .hbm, ⟨33, _⟩ => ⟨S200000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S_S27x60000 : S_.BroadcastsInDim S27x60000 (![] : Fin 0 → Fin S27x60000.rank)
  bcast_S27x60000_S27x60000x1_0_1 : S27x60000.BroadcastsInDim S27x60000x1 (![0, 1] : Fin 2 → Fin S27x60000x1.rank)
  bcast_S_S200000x64 : S_.BroadcastsInDim S200000x64 (![] : Fin 0 → Fin S200000x64.rank)
  shapeCasts_S27x60000_S1620000 : S27x60000.ShapeCasts S1620000
  shapeCasts_S27x60000x64_S1620000x64 : S27x60000x64.ShapeCasts S1620000x64
  bcast_S_S1620000 : S_.BroadcastsInDim S1620000 (![] : Fin 0 → Fin S1620000.rank)
  bcast_S1620000_S1620000x1_0 : S1620000.BroadcastsInDim S1620000x1 (![0] : Fin 1 → Fin S1620000x1.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  gather_S200000x64_S27x60000x1_S27x60000x64_2_0_n_n_0_2_164_wf : GatherDims.WF S200000x64 S27x60000x1 S27x60000x64 [2] [0] [] [0] [] 2 ![1, 64]
  dot_S27x60000x64_S27x64x64_S27x60000x64_2_1_1_2_0_0_wf : DotDims.WF S27x60000x64 S27x64x64 S27x60000x64 [2] [1] [1] [2] [0] [0]
  scatter_S200000x64_S1620000x1_S1620000x64_1_0_0_1_wf : ScatterDims.WF S200000x64 S1620000x1 S1620000x64 [1] [0] [0] 1

variable [Facts₀]

def gather_S200000x64_S27x60000x1_S27x60000x64_2_0_n_n_0_2_164 : GatherDims S200000x64 S27x60000x1 S27x60000x64 where
  offsetDims := [2]
  collapsedSliceDims := [0]
  operandBatchingDims := []
  startIndicesBatchingDims := []
  startIndexMap := [0]
  indexVectorDim := 2
  sliceSizes := ![1, 64]
  wf := gather_S200000x64_S27x60000x1_S27x60000x64_2_0_n_n_0_2_164_wf
def dot_S27x60000x64_S27x64x64_S27x60000x64_2_1_1_2_0_0 : DotDims S27x60000x64 S27x64x64 S27x60000x64 where
  lhsContracting := [2]
  rhsContracting := [1]
  lhsNonContracting := [1]
  rhsNonContracting := [2]
  lhsBatch := [0]
  rhsBatch := [0]
  wf := dot_S27x60000x64_S27x64x64_S27x60000x64_2_1_1_2_0_0_wf
def scatter_S200000x64_S1620000x1_S1620000x64_1_0_0_1 : ScatterDims S200000x64 S1620000x1 S1620000x64 where
  updateWindowDims := [1]
  insertedWindowDims := [0]
  scatterDimsToOperandDims := [0]
  indexVectorDim := 1
  wf := scatter_S200000x64_S1620000x1_S1620000x64_1_0_0_1_wf

class Facts : Prop extends Facts₀ where

variable [Facts]
-- ==== Proof.Spec.lean ====
/-
  The mathematics both programs compute, stated once over the argument arrays.

  A sparse convolution over 200000 active sites with 27 kernel offsets and 60000 index pairs per offset. For offset k
  and pair p the input index in_index[k, p] (a signed word; a negative one counted from the end, then clamped into the
  table) names a row of the feature table [200000, 64]; that row times the offset's weight matrix weight[k] : [64, 64]
  is the pair's update row, and update row k·60000 + p is added into the output row out_index[k, p] names. A bias row
  is added to every output row and the result is cut below at zero.
-/
import proofs.«137273_j9268539425513_1_alg».proof.KernelIdeal
import Idealize.ShloMosaic.PureOps.Ideal
import Idealize.ShloMosaic.Lib.ValueIdx

noncomputable section

namespace Cert.Spec

open Idealize.ShloMosaic Idealize.ShloMosaic.ValueIdx Cert.KernelIdeal

/-- A signed index word with a negative one counted from the table's end: 200000 is added when it is below zero. -/
def wrap (v : BitVec 32) : BitVec 32 := Scalar.select (IntOp.cmpi .slt v 0#32) (IntOp.addi v 200000#32) v

/-- The feature-table row that pair `p` of offset `k` reads: its wrapped index read signed and clamped into [0, 199999]. -/
def rowOf (x3 : S27x60000.Idx → BitVec 32) (k : Fin 27) (p : Fin 60000) : Fin 200000 :=
  ⟨min (wrap (x3 (ix2 k p))).toInt.toNat (200000 - 1), by omega⟩

/-- The per-offset product: entry (k, p, o) is the sum over i of g[k, p, i] · w[k, i, o]. -/
def prodSpec (g : S27x60000x64.Idx → EReal) (w : S27x64x64.Idx → EReal) : S27x60000x64.Idx → EReal :=
  fun j => ∑ i : Fin 64, g (ix3 (j 0) (j 1) i) * w (ix3 (j 0) i (j 2))

/-- The bias row added to every row and the sum cut below at zero. -/
def biasRelu (x : S200000x64.Idx → EReal) (b : S64.Idx → EReal) : S200000x64.Idx → EReal :=
  fun j => max (x j + b (ix1 (j 1))) (Ideal.ofBits .f32 0x00000000#32)

/-- The offset a flat pair index r = k·60000 + p belongs to, and its place within the offset. -/
def offsetOf (r : Fin 1620000) : Fin 27 := ⟨r.val / 60000, by have := r.isLt; omega⟩
def pairOf (r : Fin 1620000) : Fin 60000 := ⟨r.val % 60000, Nat.mod_lt _ (by decide)⟩

/-- The update rows [1620000, 64] both programs scatter: row r = k·60000 + p, column o, is the sum over i of
    feats[rowOf k p, i] · weight[k, i, o]. -/
def updSpec (x0 : S200000x64.Idx → EReal) (x1 : S27x64x64.Idx → EReal) (x3 : S27x60000.Idx → BitVec 32) :
    S1620000x64.Idx → EReal :=
  fun j => ∑ i : Fin 64, x0 (ix2 (rowOf x3 (offsetOf (j 0)) (pairOf (j 0))) i) * x1 (ix3 (offsetOf (j 0)) i (j 1))

end Cert.Spec

end
-- ==== Proof.HostStretches.lean ====
/-
  What the host operations around the two pallas_calls leave in the buffers the regions read, as terms of the launch
  memory: before the first region the feature table and the weights rounded to bf16, the in-index array flattened, a
  negative index wrapped, and the table's rows gathered by it and re-laid per offset; between the regions the first
  region's product re-laid as update rows and scatter-added, by the wrapped out-index column, into zeros. The bias is
  read by the second region as launched.
-/
import proofs.«137273_j9268539425513_1_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The column of wrapped indices both index arrays are turned into: flattened, 200000 added to a negative word,
    laid as [1620000, 1]. -/
def indexColumn (x : (⟨S27x60000, .i32⟩ : BufTy).Contents (Elt F)) : (⟨S1620000x1, .i32⟩ : BufTy).Contents (Elt F) :=
  broadcastInDim S1620000x1 ![0] Facts₀.bcast_S1620000_S1620000x1_0
    (select (cmpi .slt (shapeCast S1620000 x Facts₀.shapeCasts_S27x60000_S1620000) (broadcastInDim S1620000 ![] Facts₀.bcast_S_S1620000 (constantI S_ 32 0#32)))
      (addi (shapeCast S1620000 x Facts₀.shapeCasts_S27x60000_S1620000) (broadcastInDim S1620000 ![] Facts₀.bcast_S_S1620000 (constantI S_ 32 200000#32)))
      (shapeCast S1620000 x Facts₀.shapeCasts_S27x60000_S1620000))

/-- The first region finds the weights rounded to bf16. -/
theorem entry0_weights (c : Dev nD) :
    V1 m ρ c main_v1 = truncf .bf16 (m ((c : Thread nD τ).loc main_arg1)) Facts₀.bitsLt_bf16_f32 := by
  show StableHlo.after hostOps0 (W0 m ρ c) (Proc.devRef .tc main_v1) = _
  after_results

/-- The first region finds the rounded feature table's rows gathered by the wrapped in-index column, re-laid per offset. -/
theorem entry0_gathered (c : Dev nD) :
    V1 m ρ c main_v10 = shapeCast S27x60000x64
      (Host.gather gather_S200000x64_S1620000x1_S1620000x64_1_0_n_n_0_1_164
        (truncf .bf16 (m ((c : Thread nD τ).loc main_arg0)) Facts₀.bitsLt_bf16_f32)
        (indexColumn (m ((c : Thread nD τ).loc main_arg3)))) Facts₀.shapeCasts_S1620000x64_S27x60000x64 := by
  show StableHlo.after hostOps0 (W0 m ρ c) (Proc.devRef .tc main_v10) = _
  after_results
  rfl

/-- No host operation before the first region and no window of it writes the out-index array. -/
theorem mid_outIndex (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = m ((c : Thread nD τ).loc main_arg4) := by
      show StableHlo.after hostOps0 (W0 m ρ c) (Proc.devRef .tc main_arg4) = _
      after_results

/-- Nor the bias. -/
theorem mid_bias (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = m ((c : Thread nD τ).loc main_arg2) := by
      show StableHlo.after hostOps0 (W0 m ρ c) (Proc.devRef .tc main_arg2) = _
      after_results

/-- The second region finds the bias as launched. -/
theorem entry1_bias (c : Dev nD) : V3 m ρ c main_arg2 = m ((c : Thread nD τ).loc main_arg2) := by
  refine Eq.trans ?_ (mid_bias m ρ c)
  show StableHlo.after hostOps1 (W2 m ρ c) (Proc.devRef .tc main_arg2) = _
  after_results

/-- The second region finds zeros with the first region's product, re-laid as update rows, scatter-added by the wrapped
    out-index column. -/
theorem entry1_scattered (c : Dev nD) :
    V3 m ρ c main_v21 = Host.scatterAdd scatter_S200000x64_S1620000x1_S1620000x64_1_0_0_1
      (broadcastInDim S200000x64 ![] Facts₀.bcast_S_S200000x64 (constant S_ .f32 0x00000000#32))
      (indexColumn (m ((c : Thread nD τ).loc main_arg4)))
      (shapeCast S1620000x64 ((dat0 (V1 m ρ) c).arrAt 2 cfg0.N) Facts₀.shapeCasts_S27x60000x64_S1620000x64) := by
  rw [← W2_arr m ρ c 2, ← mid_outIndex m ρ c]
  show StableHlo.after hostOps1 (W2 m ρ c) (Proc.devRef .tc main_v21) = _
  after_results
  rfl

end Cert.KernelIdeal.Hand

end
-- ==== Proof.Region0.lean ====
/-
  The first kernel region's output array after its 108 grid points.

  Grid point (k, q) reads rows 15000·q … 15000·q + 14999 of offset k's gathered features, the whole weight matrix of
  offset k, and writes the product of the two into the same rows of offset k of the output. Entry (k, p, o) of the
  output array is therefore the sum over i of g[k, p, i] · w[k, i, o], whatever the two arrays held at the region's
  entry.
-/
import proofs.«137273_j9268539425513_1_alg».proof.Proof.Spec
import proofs.«137273_j9268539425513_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Spec

/-! ## The body's product at an index -/

/-- The left operand's row is the output's row. -/
theorem lhs_mm_0 (i : S15000x64.Idx) (q : dot_S15000x64_S64x64_S15000x64_1_0_0_1_n_n.contr.Idx) :
    (dot_S15000x64_S64x64_S15000x64_1_0_0_1_n_n.lhsIdx i q 0).val = (i 0).val := by
  unfold DotDims.lhsIdx
  rw [dif_neg (show ¬(0 : Fin S15000x64.rank) ∈ dot_S15000x64_S64x64_S15000x64_1_0_0_1_n_n.lhsBatch by decide), dif_pos (show (0 : Fin S15000x64.rank) ∈ dot_S15000x64_S64x64_S15000x64_1_0_0_1_n_n.lhsNonContracting by decide)]
  rfl
/-- The left operand's column is the contraction position. -/
theorem lhs_mm_1 (i : S15000x64.Idx) (q : dot_S15000x64_S64x64_S15000x64_1_0_0_1_n_n.contr.Idx) :
    (dot_S15000x64_S64x64_S15000x64_1_0_0_1_n_n.lhsIdx i q 1).val = (q ⟨0, by decide⟩).val :=
  dot_S15000x64_S64x64_S15000x64_1_0_0_1_n_n.lhsIdx_val_of_single rfl i q
/-- The right operand's row is the contraction position. -/
theorem rhs_mm_0 (i : S15000x64.Idx) (q : dot_S15000x64_S64x64_S15000x64_1_0_0_1_n_n.contr.Idx) :
    (dot_S15000x64_S64x64_S15000x64_1_0_0_1_n_n.rhsIdx i q 0).val = (q ⟨0, by decide⟩).val :=
  dot_S15000x64_S64x64_S15000x64_1_0_0_1_n_n.rhsIdx_val_of_single rfl i q
/-- The right operand's column is the output's column. -/
theorem rhs_mm_1 (i : S15000x64.Idx) (q : dot_S15000x64_S64x64_S15000x64_1_0_0_1_n_n.contr.Idx) :
    (dot_S15000x64_S64x64_S15000x64_1_0_0_1_n_n.rhsIdx i q 1).val = (i 1).val := by
  unfold DotDims.rhsIdx
  rw [dif_neg (show ¬(1 : Fin S64x64.rank) ∈ dot_S15000x64_S64x64_S15000x64_1_0_0_1_n_n.rhsBatch by decide), dif_pos (show (1 : Fin S64x64.rank) ∈ dot_S15000x64_S64x64_S15000x64_1_0_0_1_n_n.rhsNonContracting by decide)]
  rfl

/-- A matrix product into the zero accumulator, at (p, o): the sum over i of l[p, i] · r[i, o]. -/
theorem mm_apply (l : FVec Ideal S15000x64 .bf16) (r : FVec Ideal S64x64 .bf16) (p : Fin 15000) (o : Fin 64) :
    FloatOps.matmul dot_S15000x64_S64x64_S15000x64_1_0_0_1_n_n none l r (constant S15000x64 .f32 0x00000000#32) (ix2 p o)
      = ∑ i : Fin 64, l (ix2 p i) * r (ix2 i o) := by
  rw [Ideal.matmul_constant_zero_apply, ← Equiv.sum_comp (contrEquiv1 dot_S15000x64_S64x64_S15000x64_1_0_0_1_n_n 64 rfl rfl).symm]
  refine Finset.sum_congr rfl fun k _ => ?_
  have hk := contrEquiv1_symm_val dot_S15000x64_S64x64_S15000x64_1_0_0_1_n_n 64 rfl rfl k
  have el : dot_S15000x64_S64x64_S15000x64_1_0_0_1_n_n.lhsIdx (ix2 p o) ((contrEquiv1 dot_S15000x64_S64x64_S15000x64_1_0_0_1_n_n 64 rfl rfl).symm k) = ix2 p k := funext fun a => Fin.ext (by
    match a with
    | ⟨0, _⟩ => exact lhs_mm_0 _ _
    | ⟨1, _⟩ => exact (lhs_mm_1 _ _).trans hk)
  have er : dot_S15000x64_S64x64_S15000x64_1_0_0_1_n_n.rhsIdx (ix2 p o) ((contrEquiv1 dot_S15000x64_S64x64_S15000x64_1_0_0_1_n_n 64 rfl rfl).symm k) = ix2 k o := funext fun a => Fin.ext (by
    match a with
    | ⟨0, _⟩ => exact (rhs_mm_0 _ _).trans hk
    | ⟨1, _⟩ => exact rhs_mm_1 _ _)
  rw [el, er]

/-- The body's stored block at (0, p, o): the sum over i of x0[0, p, i] · x1[0, i, o]. -/
theorem pay_apply (x0 : Vec Ideal S1x15000x64 .bf16) (x1 : Vec Ideal S1x64x64 .bf16) (p : Fin 15000) (o : Fin 64) :
    k0_pay1 (F := Ideal) x0 x1 (ix3 (0 : Fin 1) p o) = ∑ i : Fin 64, x0 (ix3 (0 : Fin 1) p i) * x1 (ix3 (0 : Fin 1) i o) := by
  unfold k0_pay1
  refine (shapeCast_ab_1ab_apply _ shapeCasts_S15000x64_S1x15000x64 (0 : Fin 1) p o).trans ?_
  refine (mm_apply _ _ p o).trans ?_
  refine Finset.sum_congr rfl fun i _ => ?_
  rw [shapeCast_1ab_ab_apply x0 shapeCasts_S1x15000x64_S15000x64 p i, shapeCast_1ab_ab_apply x1 shapeCasts_S1x64x64_S64x64 i o]

/-! ## From blocks to the array -/

variable (V : (c : Dev nD) → (b : Ref sig .tc) → Buf (Elt Ideal) ((c : Thread nD τ).loc b))

theorem off_zero : (![0, 0, 0] : Fin 3 → Nat) = fun _ => 0 := funext fun a => by fin_cases a <;> rfl

/-- The index maps over the grid: the gathered rows' block moves with the output's on every axis; the weight's block is
    offset k's whole matrix; the output's block index is (k, q, 0) with k below 27 and q below 4. -/
theorem idx_rel : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) < 27
    ∧ win0_2.index t (1 : Fin 3) < 4 :=
  (by decide +kernel : ∀ t : Fin grid0.N, _)

/-- Every block (k, q, 0) is some point's. -/
theorem idx_onto : ∀ (k : Fin 27) (q : Fin 4), ∃ t : Fin cfg0.N, win0_2.index t = ![k.val, q.val, 0] :=
  (by decide +kernel : ∀ (k : Fin 27) (q : Fin 4), ∃ t : Fin grid0.N, win0_2.index t = ![k.val, q.val, 0])

/-- One point's stored block against the product of the arrays, over explicit coordinates: if row p of the loaded feature
    block is row r of offset k of g, and the loaded weight block is offset k of w, then entry (0, p, o) of what the body
    stores is entry (k, r, o) of the product. -/
theorem block_apply (g : S27x60000x64.Idx → EReal) (w : S27x64x64.Idx → EReal)
    (x0 : Vec Ideal S1x15000x64 .bf16) (x1 : Vec Ideal S1x64x64 .bf16)
    (p : Fin 15000) (o : Fin 64) (k : Fin 27) (r : Fin 60000)
    (h0 : ∀ i : Fin 64, x0 (ix3 (0 : Fin 1) p i) = g (ix3 k r i))
    (h1 : ∀ i : Fin 64, x1 (ix3 (0 : Fin 1) i o) = w (ix3 k i o)) :
    k0_pay1 (F := Ideal) x0 x1 (ix3 (0 : Fin 1) p o) = prodSpec g w (ix3 k r o) := by
  rw [pay_apply]
  show _ = ∑ i : Fin 64, g (ix3 k r i) * w (ix3 k i o)
  exact Finset.sum_congr rfl fun i _ => by rw [h0 i, h1 i]

/-- The feature window's block at a point, read at (0, p, i): row (block row)·15000 + p of offset (block offset). -/
theorem gblk_apply (c : Dev nD) (t : Fin cfg0.N) (p : Fin 15000) (i : Fin 64) (k : Fin 27) (r : Fin 60000)
    (hk : k.val = win0_0.index t (0 : Fin 3)) (hr : r.val = win0_0.index t (1 : Fin 3) * 15000 + p.val)
    (h2 : win0_0.index t (2 : Fin 3) = 0) :
    (iblk0 V c 0 t : Vec Ideal S1x15000x64 .bf16) (ix3 (0 : Fin 1) p i)
      = (V c main_v10 : S27x60000x64.Idx → EReal) (ix3 k r i) := by
  show (V c main_v10 : S27x60000x64.Idx → EReal) (((cfg0.win 0).blk t).view.emb (ix3 (0 : Fin 1) p i)) = _
  refine congrArg _ (funext fun a => Fin.ext ?_)
  match a with
  | ⟨0, _⟩ => show win0_0.index t (0 : Fin 3) * 1 + 1 * 0 = k.val; omega
  | ⟨1, _⟩ => show win0_0.index t (1 : Fin 3) * 15000 + 1 * p.val = r.val; omega
  | ⟨2, _⟩ => show win0_0.index t (2 : Fin 3) * 64 + 1 * i.val = i.val; omega

/-- The weight window's block at a point, read at (0, i, o): entry (i, o) of offset (block offset)'s matrix. -/
theorem wblk_apply (c : Dev nD) (t : Fin cfg0.N) (i o : Fin 64) (k : Fin 27)
    (hk : k.val = win0_1.index t (0 : Fin 3)) (h1 : win0_1.index t (1 : Fin 3) = 0)
    (h2 : win0_1.index t (2 : Fin 3) = 0) :
    (iblk0 V c 1 t : Vec Ideal S1x64x64 .bf16) (ix3 (0 : Fin 1) i o)
      = (V c main_v1 : S27x64x64.Idx → EReal) (ix3 k i o) := by
  show (V c main_v1 : S27x64x64.Idx → EReal) (((cfg0.win 1).blk t).view.emb (ix3 (0 : Fin 1) i o)) = _
  refine congrArg _ (funext fun a => Fin.ext ?_)
  match a with
  | ⟨0, _⟩ => show win0_1.index t (0 : Fin 3) * 1 + 1 * 0 = k.val; omega
  | ⟨1, _⟩ => show win0_1.index t (1 : Fin 3) * 64 + 1 * i.val = i.val; omega
  | ⟨2, _⟩ => show win0_1.index t (2 : Fin 3) * 64 + 1 * o.val = o.val; omega

/-- What a point writes back is its block of the product of the two arrays the region found. -/
theorem flushed_eq (c : Dev nD) (t : Fin cfg0.N) :
    (dat0 (F := Ideal) V c).flushed 2 t
      = ((cfg0.win 2).blk t).view.read (Elt Ideal) (prodSpec (V c main_v10) (V c main_v1)) := by
  show (cfg0.win 2).cut (grid0.coords t) ((dat0 V c).after 2 t) = _
  rw [after0_2]
  unfold out0_2
  rw [View.canon_unit_zero off_zero]
  simp only [View.ld_unit_zero (S := S1x15000x64) off_zero, View.ld_unit_zero (S := S1x64x64) off_zero]
  funext j
  obtain ⟨e00, e01, e02, e10, e11, e12, e22, b0, b1⟩ := idx_rel t
  have hj0 : (j 0).val < 1 := (j 0).isLt
  have hj1 : (j 1).val < 15000 := (j 1).isLt
  have hj2 : (j 2).val < 64 := (j 2).isLt
  have hl : (win0 2).xinj (grid0.coords t) j = ix3 (0 : Fin 1) (⟨(j 1).val, hj1⟩ : Fin 15000) (⟨(j 2).val, hj2⟩ : Fin 64) :=
    funext fun a => Fin.ext (by
      match a with
      | ⟨0, _⟩ => show (j 0).val = 0; omega
      | ⟨1, _⟩ => rfl
      | ⟨2, _⟩ => rfl)
  have hr : ((cfg0.win 2).blk t).view.emb j
      = ix3 (⟨win0_2.index t (0 : Fin 3), b0⟩ : Fin 27)
          (⟨win0_2.index t (1 : Fin 3) * 15000 + (j 1).val, by omega⟩ : Fin 60000) (⟨(j 2).val, hj2⟩ : Fin 64) :=
    funext fun a => Fin.ext (by
      match a with
      | ⟨0, _⟩ => show win0_2.index t (0 : Fin 3) * 1 + 1 * (j 0).val = win0_2.index t (0 : Fin 3); omega
      | ⟨1, _⟩ => show win0_2.index t (1 : Fin 3) * 15000 + 1 * (j 1).val = win0_2.index t (1 : Fin 3) * 15000 + (j 1).val; omega
      | ⟨2, _⟩ => show win0_2.index t (2 : Fin 3) * 64 + 1 * (j 2).val = (j 2).val; omega)
  show k0_pay1 (F := Ideal) (iblk0 V c 0 t) (iblk0 V c 1 t) ((win0 2).xinj (grid0.coords t) j)
    = prodSpec (V c main_v10) (V c main_v1) (((cfg0.win 2).blk t).view.emb j)
  rw [hl, hr]
  exact block_apply (V c main_v10) (V c main_v1) (iblk0 V c 0 t) (iblk0 V c 1 t)
    (⟨(j 1).val, hj1⟩ : Fin 15000) (⟨(j 2).val, hj2⟩ : Fin 64) (⟨win0_2.index t (0 : Fin 3), b0⟩ : Fin 27)
    (⟨win0_2.index t (1 : Fin 3) * 15000 + (j 1).val, by omega⟩ : Fin 60000)
    (fun i => gblk_apply V c t _ i _ _ e00.symm (by show _ = _; rw [e01]) (e02.trans e22))
    (fun i => wblk_apply V c t i _ _ e10.symm e11 e12)

/-- An index of the array is in a point's block iff each coordinate is in the block's range on its axis. -/
theorem mem_blk (t : Fin cfg0.N) (i : S27x60000x64.Idx) :
    i ∈ ((cfg0.win 2).blk t).view.set ↔ ∀ a : Fin 3, win0_2.index t a * S1x15000x64.size a ≤ (i a).val
      ∧ (i a).val < win0_2.index t a * S1x15000x64.size a + S1x15000x64.size a := by
  show i ∈ ((View.whole main_v11).slice (win0_2.rect t)).set ↔ _
  rw [View.set_slice_whole, Rect.mem_set_unit]
  exact Iff.rfl

/-- Every index (k, r, o) of the array lies in the block of the point with offset k and row tile r / 15000, and every
    point writes its block back. -/
theorem covered (i : S27x60000x64.Idx) :
    ∃ t : Fin cfg0.N, (cfg0.win 2).flush t = true ∧ i ∈ ((cfg0.win 2).blk t).view.set := by
  have hi0 : (i 0).val < 27 := (i 0).isLt
  have hi1 : (i 1).val < 60000 := (i 1).isLt
  have hi2 : (i 2).val < 64 := (i 2).isLt
  obtain ⟨t, ht⟩ := idx_onto ⟨(i 0).val, hi0⟩ ⟨(i 1).val / 15000, by omega⟩
  have q0 : win0_2.index t (0 : Fin 3) = (i 0).val := congrFun ht 0
  have q1 : win0_2.index t (1 : Fin 3) = (i 1).val / 15000 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 15000 ≤ (i 1).val ∧ (i 1).val < win0_2.index t (1 : Fin 3) * 15000 + 15000; omega
  | ⟨2, _⟩ => show win0_2.index t (2 : Fin 3) * 64 ≤ (i 2).val ∧ (i 2).val < win0_2.index t (2 : Fin 3) * 64 + 64; omega

/-- After the 108 points the output array holds, at (k, p, o), the sum over i of g[k, p, i] · w[k, i, o], g and w the
    gathered features and the weights as the region found them. -/
theorem region0_final (c : Dev nD) :
    (dat0 (F := Ideal) V c).arrAt 2 cfg0.N = prodSpec (V c main_v10) (V c main_v1) :=
  (dat0 V c).arrAt_eq_of_cover 2 (prodSpec (V c main_v10) (V c main_v1)) (fun t _ => flushed_eq V c t) (fun i => covered i)

end Cert.KernelIdeal.Hand

end
-- ==== Proof.Region1.lean ====
/-
  The second kernel region: the bias row added to every row of the scattered sums, the result cut below at zero.

  The region's grid has 20 points. Point t stages rows 10000·t … 10000·t + 9999 of the [200000, 64] array of sums and
  the whole bias row [64], and writes back the same rows of the result: entry (r, o) of the written block is
  max (x[10000·t + r, o] + b[o]) 0. The 20 row blocks tile the result array, so after the last point the array holds,
  at every (n, o), max (x[n, o] + b[o]) 0, where x and b are the arrays the region found when it was entered.
-/
import proofs.«137273_j9268539425513_1_alg».proof.Proof.Spec
import proofs.«137273_j9268539425513_1_alg».proof.Proof.Gen.KernelIdeal.Frame
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.ValueIdx
open Idealize.ShloMosaic.Pipeline (Dat)

namespace Cert.KernelIdeal.Hand

open Cert.KernelIdeal Cert.KernelIdeal.Gen Cert.Spec

namespace Region1

/-! ## The body's arithmetic at an entry -/

/-- Entry (r, o) of what the body stores: the staged sum at (r, o) plus the bias at o, cut below at zero. The bias row
    [64] is first read as a [1, 64] array and that one row repeated over the 10000 rows; neither step moves column o. -/
theorem biasReluBlock_apply (x0 : Vec Ideal S10000x64 .f32) (x1 : Vec Ideal S64 .f32) (r : Fin 10000) (o : Fin 64) :
    k1_pay1 (F := Ideal) x0 x1 (ix2 r o) = max (x0 (ix2 r o) + x1 (ix1 o)) (Ideal.ofBits .f32 0x00000000#32) := by
  unfold k1_pay1
  rw [maximumf_apply, addf_apply, broadcast_apply, shapeCast_self, broadcastTo_1b_ab_apply, shapeCast_a_1a_apply]
  rfl

/-- The body's result at a block entry against the whole arrays: if the staged sum at j is the array of sums at i, the
    staged bias row is the bias row, and i has j's column, the stored entry is the specification's at i. -/
theorem biasReluBlock_eq (X : S200000x64.Idx → EReal) (B : S64.Idx → EReal)
    (x0 : Vec Ideal S10000x64 .f32) (x1 : Vec Ideal S64 .f32) (j : S10000x64.Idx) (i : S200000x64.Idx)
    (h0 : x0 j = X i) (h1 : ∀ o : Fin 64, x1 (ix1 o) = B (ix1 o)) (hi : (i 1).val = (j 1).val) :
    k1_pay1 (F := Ideal) x0 x1 j = biasRelu X B i := by
  obtain ⟨r, o, rfl⟩ : ∃ (r : Fin 10000) (o : Fin 64), j = ix2 r o := ⟨j 0, j 1, eq_ix2 j⟩
  rw [biasReluBlock_apply, h0, h1]
  unfold biasRelu
  have hc : (ix1 (i 1) : S64.Idx) = ix1 o := funext fun d => by
    match d with
    | ⟨0, _⟩ => exact Fin.ext hi
  rw [hc]

/-! ## The blocks of the three windows -/

theorem zeros2 : (![0, 0] : Fin 2 → Nat) = fun _ => 0 := funext fun a => by fin_cases a <;> rfl
theorem zeros1 : (![0] : Fin 1 → Nat) = fun _ => 0 := funext fun a => by fin_cases a <;> rfl

/-- Where the blocks lie, decided over the 20 points: the sums' block and the result's block at point t are both row
    block t and the one column block; the bias row's block is always the whole row. -/
theorem blockIndex_facts : ∀ t : Fin cfg1.N,
    win1_0.index t (0 : Fin 2) = win1_2.index t (0 : Fin 2)
    ∧ win1_0.index t (1 : Fin 2) = win1_2.index t (1 : Fin 2)
    ∧ win1_1.index t (0 : Fin 1) = 0
    ∧ win1_2.index t (0 : Fin 2) = t.val
    ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the specification of the two arrays the region found: entry (r, o) of the
    written block sits at row 10000·t + r, column o of the result, the staged sums come from the same place of the array of
    sums, and the staged bias row is the bias row. -/
theorem flushed_eq (c : Dev nD) (t : Fin cfg1.N) :
    (dat1 (F := Ideal) V c).flushed 2 t
      = ((cfg1.win 2).blk t).view.read (Elt Ideal) (biasRelu (V c main_v21) (V c main_arg2)) := by
  show (cfg1.win 2).cut (grid1.coords t) ((dat1 V c).after 2 t) = _
  rw [after1_2]
  unfold out1_2
  rw [View.canon_unit_zero zeros2]
  simp only [View.ld_unit_zero (S := S10000x64) zeros2, View.ld_unit_zero (S := S64) zeros1]
  obtain ⟨e0, e1, e2, e3, e4⟩ := blockIndex_facts t
  funext j
  refine biasReluBlock_eq (V c main_v21) (V c main_arg2) (iblk1 V c 0 t) (iblk1 V c 1 t) j
    (((cfg1.win 2).blk t).view.emb j) ?_ ?_ ?_
  · show V c main_v21 (((cfg1.win 0).blk t).view.emb j) = V c main_v21 (((cfg1.win 2).blk t).view.emb j)
    have h : ((cfg1.win 0).blk t).view.emb j = ((cfg1.win 2).blk t).view.emb j := by
      funext a; apply Fin.ext
      match a with
      | ⟨0, _⟩ => show win1_0.index t (0 : Fin 2) * 10000 + 1 * (j 0).val = win1_2.index t (0 : Fin 2) * 10000 + 1 * (j 0).val; omega
      | ⟨1, _⟩ => show win1_0.index t (1 : Fin 2) * 64 + 1 * (j 1).val = win1_2.index t (1 : Fin 2) * 64 + 1 * (j 1).val; omega
    rw [h]
  · intro o
    show V c main_arg2 (((cfg1.win 1).blk t).view.emb (ix1 o)) = V c main_arg2 (ix1 o)
    refine congrArg (V c main_arg2) (funext fun a => Fin.ext ?_)
    match a with
    | ⟨0, _⟩ => show win1_1.index t (0 : Fin 1) * 64 + 1 * o.val = o.val; omega
  · show win1_2.index t (1 : Fin 2) * 64 + 1 * (j 1).val = (j 1).val
    omega

/-- An entry of the result array is in point t's block iff each coordinate is in the block's range on its axis. -/
theorem mem_block (t : Fin cfg1.N) (i : S200000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v22).slice (win1_2.rect t)).set ↔ _
  rw [View.set_slice_whole, Rect.mem_set_unit]
  exact Iff.rfl

/-- The 20 row blocks tile the result array: row n lies in the block of point n / 10000, and every point writes back. -/
theorem blocks_cover (i : S200000x64.Idx) :
    ∃ t : Fin cfg1.N, (cfg1.win 2).flush t = true ∧ i ∈ ((cfg1.win 2).blk t).view.set := by
  have hi0 : (i 0).val < 200000 := (i 0).isLt
  have hi1 : (i 1).val < 64 := (i 1).isLt
  have hN : grid1.N = 20 := N_1
  let t : Fin cfg1.N := ⟨(i 0).val / 10000, by show (i 0).val / 10000 < grid1.N; omega⟩
  obtain ⟨e0, e1, e2, e3, e4⟩ := blockIndex_facts t
  have e3' : win1_2.index t (0 : Fin 2) = (i 0).val / 10000 := e3
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

end Region1

/-! ## The result array after the region -/

variable (V : (c : Dev nD) → (b : Ref sig .tc) → Buf (Elt Ideal) ((c : Thread nD τ).loc b))

/-- After the 20 points the result array holds, at (n, o), the sum found at (n, o) plus the bias found at o, cut below at
    zero: every point writes back its block of that function, and the blocks cover the array. -/
theorem region1_final (c : Dev nD) :
    (dat1 (F := Ideal) V c).arrAt 2 cfg1.N = biasRelu (V c main_v21) (V c main_arg2) :=
  (dat1 (F := Ideal) V c).arrAt_eq_of_cover 2 (biasRelu (V c main_v21) (V c main_arg2))
    (fun t _ => Region1.flushed_eq V c t) Region1.blocks_cover

end Cert.KernelIdeal.Hand

end
-- ==== Proof.LibGatherRows.lean ====
/-
  A gather of whole rows read at an index. For an operand [N, C] (or a flat operand [N]) and a column [R, 1] of start
  indices, the gather that collapses the row axis and keeps the columns reads, at (r, c), the operand's row at the start
  index idx[r, 0] taken as a signed integer and clamped into [0, N - 1], column c.
-/
import Idealize.ShloMosaic.PureOps.Ideal
import Idealize.ShloMosaic.Lib.ValueIdx

noncomputable section

namespace Idealize.ShloMosaic.GatherRows

open Idealize.ShloMosaic Idealize.ShloMosaic.ValueIdx

/-- A natural number clamped at `N - 1` is below a positive `N`. -/
theorem clamp_lt {N : Nat} (hN : 0 < N) (k : Nat) : min k (N - 1) < N := by omega

/-! ## Rows of a matrix at a column of start indices -/

section Rows
variable {α : Type}

/-- The dimension numbers of `x[idx[:, 0], :]` for an operand `[N, C]`, a column `[R, 1]` of start indices and a result
    `[R, C]`: the row axis collapsed and mapped by the start index, the column axis kept whole as the result's offset
    axis; their conditions `wf` are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The conditions hold only for an operand with at least one row: a slice of one row fits. -/
theorem rows_pos {N R C : Nat} (wf : GatherDims.WF ⟨2, ![N, C]⟩ ⟨2, ![R, 1]⟩ ⟨2, ![R, C]⟩ [1] [0] [] [0] [] 1 ![1, C]) :
    0 < N :=
  (rowDims N R C wf).slice_le 0

/-- THE ROW GATHER READ AT `(r, c)`: the operand's row at the start index `idx[r, 0]`, read signed and clamped into
    `[0, N − 1]`, at column `c`. -/
theorem gather_rows_apply {N R C w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r 0)).toInt.toNat (N - 1), clamp_lt (rows_pos wf) _⟩ c) := by
  unfold Host.gather
  congr 1
  funext a
  refine Fin.ext ?_
  match a with
  | ⟨0, _⟩ =>
    show (rowDims N R C wf).start (ix2 r c) idx 0 + (rowDims N R C wf).batchCoord (ix2 r c) 0
      + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
      + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ ([0] : List (Fin 2))))]
    simp only [Nat.add_zero, Nat.zero_add]
    rfl

end Rows

/-! ## A flat array at a column of start indices -/

section Flat
variable {α : Type}

/-- The dimension numbers of `x[idx[:, 0]]` for a flat operand `[N]`, a column `[R, 1]` of start indices and a result
    `[R]`: the operand's one axis collapsed and mapped by the start index, no offset axis; their conditions `wf` are
    decided on a program's literal shapes. -/
abbrev flatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The conditions hold only for a non-empty operand: a slice of one element fits. -/
theorem flat_pos {N R : Nat} (wf : GatherDims.WF ⟨1, ![N]⟩ ⟨2, ![R, 1]⟩ ⟨1, ![R]⟩ [] [0] [] [0] [] 1 ![1]) : 0 < N :=
  (flatDims N R wf).slice_le 0

/-- THE FLAT GATHER READ AT `r`: the operand at the start index `idx[r, 0]`, read signed and clamped into
    `[0, N − 1]`. -/
theorem gather_flat_apply {N R w : Nat} (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (flatDims N R wf) x idx (ix1 r)
      = x (ix1 ⟨min (idx (ix2 r 0)).toInt.toNat (N - 1), clamp_lt (flat_pos wf) _⟩) := by
  unfold Host.gather
  congr 1
  funext a
  obtain rfl : a = 0 := Subsingleton.elim _ _
  refine Fin.ext ?_
  show (flatDims N R wf).start (ix1 r) idx 0 + (flatDims N R wf).batchCoord (ix1 r) 0
    + (flatDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N R wf).startIndexMap from List.mem_singleton.mpr rfl)]
  have hsi : (flatDims N R wf).siIdx (ix1 r) ⟨List.idxOf (0 : Fin 1) (flatDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

end Flat

/-! ## Two gathers in a row -/

section Compose
variable {α : Type}

/-- Rows of gathered rows are gathered rows: taking the rows of `x[zc[:, 0], :]` at the start indices `idx` is taking the
    rows of `x` at any column `zr` of start indices that reads, at every `r`, the column `zc` at `idx[r, 0]` read signed
    and clamped into `[0, N − 1]` (for instance an elementwise function of a flat array gathered at `idx`, when `zc` is
    the same function of the flat array). -/
theorem gather_rows_rows {M N R C w w' : Nat}
    (wf₁ : GatherDims.WF ⟨2, ![M, C]⟩ ⟨2, ![N, 1]⟩ ⟨2, ![N, C]⟩ [1] [0] [] [0] [] 1 ![1, C])
    (wf₂ : GatherDims.WF ⟨2, ![N, C]⟩ ⟨2, ![R, 1]⟩ ⟨2, ![R, C]⟩ [1] [0] [] [0] [] 1 ![1, C])
    (wf₃ : GatherDims.WF ⟨2, ![M, C]⟩ ⟨2, ![R, 1]⟩ ⟨2, ![R, C]⟩ [1] [0] [] [0] [] 1 ![1, C])
    (x : (⟨2, ![M, C]⟩ : Shape).Idx → α) (zc : IVec ⟨2, ![N, 1]⟩ w') (idx : IVec ⟨2, ![R, 1]⟩ w)
    (zr : IVec ⟨2, ![R, 1]⟩ w')
    (h : ∀ r : Fin R, zr (ix2 r 0) = zc (ix2 ⟨min (idx (ix2 r 0)).toInt.toNat (N - 1), clamp_lt (rows_pos wf₂) _⟩ 0)) :
    Host.gather (rowDims N R C wf₂) (Host.gather (rowDims M N C wf₁) x zc) idx
      = Host.gather (rowDims M R C wf₃) x zr := by
  funext i
  obtain ⟨r, c, rfl⟩ : ∃ (r : Fin R) (c : Fin C), i = ix2 r c := ⟨i 0, i 1, eq_ix2 i⟩
  rw [gather_rows_apply, gather_rows_apply, gather_rows_apply, h r]

end Compose

end Idealize.ShloMosaic.GatherRows

end
-- ==== Proof.KernelUpdates.lean ====
/-
  The kernel program's update rows are the specification's.

  The program flattens the index array [27, 60000] to [1620000], adds 200000 to a negative index, lays the result as a
  column [1620000, 1], gathers the feature rows at that column into [1620000, 64], re-lays them as [27, 60000, 64],
  multiplies each offset's rows by the offset's weight matrix, and re-lays the products as [1620000, 64]. Read at row
  r = k * 60000 + p and column o this is the sum over i of feats[rowOf k p, i] * weight[k, i, o]: both re-layings are
  row-major, so row r of the flat array is pair p of offset k, and the gather reads the row that the wrapped index,
  taken signed and clamped into the table, names.
-/
import proofs.«137273_j9268539425513_1_alg».proof.Proof.Spec
import proofs.«137273_j9268539425513_1_alg».proof.Proof.Gen.KernelIdeal.Frame
import proofs.«137273_j9268539425513_1_alg».proof.Proof.LibGatherRows
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Spec
open Idealize.ShloMosaic.ValueIdx

/-- The per-offset product read at (k, p, o). -/
theorem prodSpec_apply (g : S27x60000x64.Idx → EReal) (w : S27x64x64.Idx → EReal) (k : Fin 27) (p : Fin 60000)
    (o : Fin 64) : prodSpec g w (ix3 k p o) = ∑ i : Fin 64, g (ix3 k p i) * w (ix3 k i o) := rfl

/-- The specification's update rows read at (r, o). -/
theorem updSpec_apply (x0 : S200000x64.Idx → EReal) (x1 : S27x64x64.Idx → EReal) (x3 : S27x60000.Idx → BitVec 32)
    (r : Fin 1620000) (o : Fin 64) :
    updSpec x0 x1 x3 (ix2 r o)
      = ∑ i : Fin 64, x0 (ix2 (rowOf x3 (offsetOf r) (pairOf r)) i) * x1 (ix3 (offsetOf r) i o) := rfl

/-- The flattened index array at r is the index array at (r / 60000, r % 60000). -/
theorem flat_apply (x3 : S27x60000.Idx → BitVec 32) (r : Fin 1620000) :
    shapeCast S1620000 x3 Facts₀.shapeCasts_S27x60000_S1620000 (ix1 r) = x3 (ix2 (offsetOf r) (pairOf r)) := by
  refine shapeCast_apply x3 Facts₀.shapeCasts_S27x60000_S1620000 (ix1 r) (ix2 (offsetOf r) (pairOf r)) ?_
  rewrite [Shape.rowMajor_val_two, Shape.rowMajor_val_one]
  show r.val / 60000 * 60000 + r.val % 60000 = r.val
  omega

/-- A scalar constant spread over [1620000] reads the constant everywhere. -/
theorem const_apply (c : BitVec 32) (r : Fin 1620000) :
    broadcastInDim S1620000 ![] Facts₀.bcast_S_S1620000 (constantI S_ 32 c) (ix1 r) = c :=
  broadcastInDim_apply _ Facts₀.bcast_S_S1620000 (constantI S_ 32 c) (ix1 r) (fun a => a.elim0) (fun a => a.elim0)

/-- The index column at (r, 0) is the wrapped index of pair r % 60000 of offset r / 60000. -/
theorem col_apply (x3 : S27x60000.Idx → BitVec 32) (r : Fin 1620000) :
    broadcastInDim S1620000x1 ![0] Facts₀.bcast_S1620000_S1620000x1_0
        (select (cmpi .slt (shapeCast S1620000 x3 Facts₀.shapeCasts_S27x60000_S1620000) (broadcastInDim S1620000 ![] Facts₀.bcast_S_S1620000 (constantI S_ 32 0#32)))
          (addi (shapeCast S1620000 x3 Facts₀.shapeCasts_S27x60000_S1620000) (broadcastInDim S1620000 ![] Facts₀.bcast_S_S1620000 (constantI S_ 32 200000#32)))
          (shapeCast S1620000 x3 Facts₀.shapeCasts_S27x60000_S1620000))
        (ix2 r (0 : Fin 1))
      = wrap (x3 (ix2 (offsetOf r) (pairOf r))) := by
  rw [broadcastInDim_apply _ Facts₀.bcast_S1620000_S1620000x1_0 _ (ix2 r (0 : Fin 1)) (ix1 r) (fun a => match a with
    | ⟨0, _⟩ => by show r.val = if (1620000 : Nat) = 1 then 0 else r.val; rw [if_neg (by decide)])]
  rw [select_apply]
  show Scalar.select (IntOp.cmpi .slt (shapeCast S1620000 x3 Facts₀.shapeCasts_S27x60000_S1620000 (ix1 r))
      (broadcastInDim S1620000 ![] Facts₀.bcast_S_S1620000 (constantI S_ 32 0#32) (ix1 r)))
    (IntOp.addi (shapeCast S1620000 x3 Facts₀.shapeCasts_S27x60000_S1620000 (ix1 r))
      (broadcastInDim S1620000 ![] Facts₀.bcast_S_S1620000 (constantI S_ 32 200000#32) (ix1 r)))
    (shapeCast S1620000 x3 Facts₀.shapeCasts_S27x60000_S1620000 (ix1 r)) = _
  rw [flat_apply, const_apply, const_apply]
  rfl

/-- The program's gather record is the row gather's. -/
theorem gatherDims_eq :
    gather_S200000x64_S1620000x1_S1620000x64_1_0_n_n_0_1_164
      = GatherRows.rowDims 200000 1620000 64 Facts₀.gather_S200000x64_S1620000x1_S1620000x64_1_0_n_n_0_1_164_wf := rfl

/-- The kernel program's gathered rows, multiplied and re-laid as update rows. -/
theorem kernel_updates (x0 : S200000x64.Idx → EReal) (x1 : S27x64x64.Idx → EReal) (x3 : S27x60000.Idx → BitVec 32) :
    shapeCast S1620000x64 (prodSpec
      (shapeCast S27x60000x64 (Host.gather gather_S200000x64_S1620000x1_S1620000x64_1_0_n_n_0_1_164 x0
        (broadcastInDim S1620000x1 ![0] Facts₀.bcast_S1620000_S1620000x1_0
          (select (cmpi .slt (shapeCast S1620000 x3 Facts₀.shapeCasts_S27x60000_S1620000) (broadcastInDim S1620000 ![] Facts₀.bcast_S_S1620000 (constantI S_ 32 0#32)))
            (addi (shapeCast S1620000 x3 Facts₀.shapeCasts_S27x60000_S1620000) (broadcastInDim S1620000 ![] Facts₀.bcast_S_S1620000 (constantI S_ 32 200000#32)))
            (shapeCast S1620000 x3 Facts₀.shapeCasts_S27x60000_S1620000))))
        Facts₀.shapeCasts_S1620000x64_S27x60000x64) x1) Facts₀.shapeCasts_S27x60000x64_S1620000x64
      = updSpec x0 x1 x3 := by
  funext j
  obtain ⟨r, o, rfl⟩ : ∃ (r : Fin 1620000) (o : Fin 64), j = ix2 r o := ⟨j 0, j 1, eq_ix2 j⟩
  rw [shapeCast_apply _ Facts₀.shapeCasts_S27x60000x64_S1620000x64 (ix2 r o) (ix3 (offsetOf r) (pairOf r) o)
    (by rewrite [Shape.rowMajor_val_three, Shape.rowMajor_val_two]
        show (r.val / 60000 * 60000 + r.val % 60000) * 64 + o.val = r.val * 64 + o.val
        omega)]
  rw [prodSpec_apply, updSpec_apply]
  refine Finset.sum_congr rfl fun i _ => ?_
  congr 1
  rw [shapeCast_apply _ Facts₀.shapeCasts_S1620000x64_S27x60000x64 (ix3 (offsetOf r) (pairOf r) i) (ix2 r i)
    (by rewrite [Shape.rowMajor_val_two, Shape.rowMajor_val_three]
        show r.val * 64 + i.val = (r.val / 60000 * 60000 + r.val % 60000) * 64 + i.val
        omega)]
  rw [gatherDims_eq, GatherRows.gather_rows_apply, col_apply]
  rfl

end Cert.KernelIdeal.Hand

end
-- ==== Proof.KernelValue.lean ====
/-
  The kernel program's result as one function of its five argument arrays.

  The run leaves in the result array what the second region's write-backs leave. Read back in turn: the second region
  adds the bias row to what it found and cuts at zero; what it found is zeros with the first region's product, re-laid
  as update rows, scatter-added by the wrapped out-index column; the first region's product is the per-offset product
  of the gathered rows with the weights; and the gathered rows re-laid and multiplied are the update rows
  feats[rowOf k p] · weight[k]. Rounding the table and the weights to bf16 is the identity on the extended reals.
-/
import proofs.«137273_j9268539425513_1_alg».proof.Proof.Spec
import proofs.«137273_j9268539425513_1_alg».proof.Proof.KernelRun
import proofs.«137273_j9268539425513_1_alg».proof.Proof.HostStretches
import proofs.«137273_j9268539425513_1_alg».proof.Proof.Region0
import proofs.«137273_j9268539425513_1_alg».proof.Proof.Region1
import proofs.«137273_j9268539425513_1_alg».proof.Proof.KernelUpdates

noncomputable section

namespace Cert.KernelIdeal.Hand

open Cert.KernelIdeal Cert.KernelIdeal.Gen Cert.Spec
open Idealize.ShloMosaic Idealize.ShloMosaic.TcCoe Idealize.SL.Sem

/-- What both programs return, as one function of the five argument arrays: zeros with the update rows scatter-added by
    the wrapped out-index column, then the bias added and the sum cut below at zero. -/
def result (x0 : S200000x64.Idx → EReal) (x1 : S27x64x64.Idx → EReal) (x2 : S64.Idx → EReal)
    (x3 x4 : S27x60000.Idx → BitVec 32) : S200000x64.Idx → EReal :=
  biasRelu (Host.scatterAdd scatter_S200000x64_S1620000x1_S1620000x64_1_0_0_1
    (broadcastInDim S200000x64 ![] Facts₀.bcast_S_S200000x64 (constant (F := Ideal) S_ .f32 0x00000000#32))
    (indexColumn (F := Ideal) x4) (updSpec x0 x1 x3)) x2

variable (m : (ℓ : Loc nD τ sig) → Buf (Elt Ideal) ℓ) (ρ : Dev nD → PrngReg)

/-- The result array after the run is `result` of the launch memory's argument arrays: the second region's blocks, the
    scatter-add between the regions, the first region's blocks, and the gather before it, read back in turn; rounding
    to bf16 is the identity on the extended reals. -/
theorem kernel_result (c : Dev nD) :
    (dat1 (V3 m ρ) c).arrAt 2 cfg1.N
      = result (m ((c : Thread nD τ).loc main_arg0)) (m ((c : Thread nD τ).loc main_arg1)) (m ((c : Thread nD τ).loc main_arg2))
          (m ((c : Thread nD τ).loc main_arg3)) (m ((c : Thread nD τ).loc main_arg4)) := by
  rw [region1_final, entry1_bias, entry1_scattered, region0_final, entry0_weights, entry0_gathered]
  unfold result
  refine congrArg (fun U => biasRelu (Host.scatterAdd scatter_S200000x64_S1620000x1_S1620000x64_1_0_0_1
    (broadcastInDim S200000x64 ![] Facts₀.bcast_S_S200000x64 (constant (F := Ideal) S_ .f32 0x00000000#32))
    (indexColumn (F := Ideal) (m ((c : Thread nD τ).loc main_arg4))) U) (m ((c : Thread nD τ).loc main_arg2))) ?_
  exact kernel_updates (m ((c : Thread nD τ).loc main_arg0)) (m ((c : Thread nD τ).loc main_arg1)) (m ((c : Thread nD τ).loc main_arg3))

/-- The kernel program's run at the extended reals with its result named. -/
theorem run_value : θ_run defs (onTc (τ := τ) (main (F := Ideal))) ⟨m, fun _ => 0, ρ⟩ (fun r => ∀ c : Dev nD,
      r.2.mem ((c.tc : Thread nD τ).loc main_v22)
        = result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (kernel_result m ρ c), (h c).2⟩) (Cert.KernelIdeal.Run.run_named m ρ)

end Cert.KernelIdeal.Hand

end
-- ==== Proof.LibGatherRows3.lean ====
/-
  A gather of whole rows read at an index, for a rank-3 array of start indices. For an operand [N, C] and start
  indices [A, B, 1], the gather that collapses the row axis and keeps the columns reads, at (a, b, c), the operand's row
  at the start index idx[a, b, 0] taken as a signed integer and clamped into [0, N - 1], column c.
-/
import proofs.«137273_j9268539425513_1_alg».proof.Proof.LibGatherRows
import Idealize.ShloMosaic.PureOps.Ideal
import Idealize.ShloMosaic.Lib.ValueIdx

noncomputable section

namespace Idealize.ShloMosaic.GatherRows3

open Idealize.ShloMosaic Idealize.ShloMosaic.ValueIdx

section Rows3
variable {α : Type}

/-- The dimension numbers of `x[idx[:, :, 0], :]` for an operand `[N, C]`, start indices `[A, B, 1]` and a result
    `[A, B, C]`: the row axis collapsed and mapped by the start index, the column axis kept whole as the result's last
    axis, the start indices' two leading axes the result's two leading axes. -/
abbrev rows3Dims (N A B C : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The conditions hold only for an operand with at least one row: a slice of one row fits. -/
theorem rows3_pos {N A B C : Nat}
    (wf : GatherDims.WF ⟨2, ![N, C]⟩ ⟨3, ![A, B, 1]⟩ ⟨3, ![A, B, C]⟩ [2] [0] [] [0] [] 2 ![1, C]) : 0 < N :=
  (rows3Dims N A B C wf).slice_le 0

/-- THE ROW GATHER READ AT `(a, b, c)`: the operand's row at the start index `idx[a, b, 0]`, read signed and clamped
    into `[0, N − 1]`, at column `c`. -/
theorem gather_rows3_apply {N A B C w : Nat}
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (c : Fin C) :
    Host.gather (rows3Dims N A B C wf) x idx (ix3 a b c)
      = x (ix2 ⟨min (idx (ix3 a b 0)).toInt.toNat (N - 1), GatherRows.clamp_lt (rows3_pos wf) _⟩ c) := by
  unfold Host.gather
  congr 1
  funext e
  refine Fin.ext ?_
  match e with
  | ⟨0, _⟩ =>
    -- the row axis: collapsed, so no offset; not a batching axis; its start is the clamped start index
    show (rows3Dims N A B C wf).start (ix3 a b c) idx 0 + (rows3Dims N A B C wf).batchCoord (ix3 a b c) 0
      + (rows3Dims N A B C wf).offCoord (ix3 a b c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims N A B C wf).startIndexMap from List.mem_singleton.mpr rfl)]
    have hsi : (rows3Dims N A B C wf).siIdx (ix3 a b c) ⟨List.idxOf (0 : Fin 2) (rows3Dims N A B C wf).startIndexMap,
        List.idxOf_lt_length_iff.2 (List.mem_singleton.mpr rfl)⟩ = ix3 a b 0 := by
      funext d; refine Fin.ext ?_
      match d with
      | ⟨0, _⟩ => rfl
      | ⟨1, _⟩ => rfl
      | ⟨2, _⟩ => rfl
    rw [hsi]
    rfl
  | ⟨1, _⟩ =>
    -- the column axis: not mapped by the start index, not a batching axis; its offset is the result's last coordinate
    show (rows3Dims N A B C wf).start (ix3 a b c) idx 1 + (rows3Dims N A B C wf).batchCoord (ix3 a b c) 1
      + (rows3Dims N A B C wf).offCoord (ix3 a b c) 1 = c.val
    rw [GatherDims.batchCoord_eq_zero _ _ _ List.not_mem_nil]
    unfold GatherDims.start
    rw [dif_neg (show (1 : Fin 2) ∉ (rows3Dims N A B C wf).startIndexMap from
      (by decide : (1 : Fin 2) ∉ ([0] : List (Fin 2))))]
    simp only [Nat.add_zero, Nat.zero_add]
    rfl

end Rows3

end Idealize.ShloMosaic.GatherRows3

end
-- ==== Proof.RefUpdates.lean ====
/-
  The reference program's update rows. Its rows gathered from the feature table by the wrapped, clamped input index,
  multiplied offset by offset with the weight and re-laid as [1620000, 64], are the update rows of the specification:
  row r = k·60000 + p, column o, is the sum over i of feats[rowOf k p, i] · weight[k, i, o].

  The gather of whole rows at a rank-3 array of start indices is read at an index by the general lemma for it; the program's
  index arithmetic (a negative index counted from the table's end) is read at an index; the batched product and the
  re-laying are read through, and the flat row index r is split into its offset r / 60000 and its place r % 60000.
-/
import proofs.«137273_j9268539425513_1_alg».proof.Proof.Spec
import proofs.«137273_j9268539425513_1_alg».proof.Proof.Gen.ReferenceIdeal.Read
import proofs.«137273_j9268539425513_1_alg».proof.Proof.LibGatherRows3
import Idealize.ShloMosaic.Lib.ValueIdx

noncomputable section

open Idealize.ShloMosaic Idealize.ShloMosaic.ValueIdx

namespace Cert.ReferenceIdeal.Hand

open Cert.ReferenceIdeal Cert.ReferenceIdeal.Gen Cert.Spec

/-! ## The reference's stages at an index -/

/-- The program's gather record is the row gather's at the table [200000, 64] and the indices [27, 60000, 1]. -/
theorem gatherDims_eq :
    gather_S200000x64_S27x60000x1_S27x60000x64_2_0_n_n_0_2_164
      = GatherRows3.rows3Dims 200000 27 60000 64 Gen.gather_S200000x64_S27x60000x1_S27x60000x64_2_0_n_n_0_2_164_wf := rfl

/-- The start index of pair `p` of offset `k`: the input index with a negative one counted from the table's end. -/
theorem startIdx_apply (x3 : S27x60000.Idx → BitVec 32) (k : Fin 27) (p : Fin 60000) :
    Read.val_main_v5 (F := Ideal) x3 (ix3 k p 0) = wrap (x3 (ix2 k p)) := by
  have h5 : Read.idx_main_v5 (ix3 k p (0 : Fin 1)) = ix2 k p := by
    funext a
    match a with
    | ⟨0, _⟩ => rfl
    | ⟨1, _⟩ => rfl
  rw [Read.val_main_v5_apply, h5, Read.val_main_v4_apply, Read.val_main_v1_apply, Read.val_main_v3_apply,
    Read.val_main_v0_apply, Read.val_main_v2_apply, Read.val_main_c_apply, Read.val_main_c_0_apply]
  rfl

/-- The gathered rows at `(k, p, i)`: the feature table's row `rowOf k p` at column `i`. -/
theorem gathered_apply (x0 : S200000x64.Idx → EReal) (x3 : S27x60000.Idx → BitVec 32)
    (k : Fin 27) (p : Fin 60000) (i : Fin 64) :
    Read.val_main_v6 (F := Ideal) x0 x3 (ix3 k p i) = x0 (ix2 (rowOf x3 k p) i) := by
  unfold Read.val_main_v6
  rw [gatherDims_eq, GatherRows3.gather_rows3_apply, startIdx_apply]
  rfl

/-- Flat row `r`, column `o` of the re-laid product is entry (r / 60000, r % 60000, o) of the batched product. -/
theorem idx10_eq (r : Fin 1620000) (o : Fin 64) :
    Read.idx_main_v10 (ix2 r o) = ix3 (offsetOf r) (pairOf r) o := by
  have hr := r.isLt
  have ho := o.isLt
  funext a
  refine Fin.ext ?_
  match a with
  | ⟨0, _⟩ => show (r.val * 64 + o.val) / 3840000 = r.val / 60000; omega
  | ⟨1, _⟩ => show (r.val * 64 + o.val) / 64 % 60000 = r.val % 60000; omega
  | ⟨2, _⟩ => show (r.val * 64 + o.val) % 64 = o.val; omega

/-- The product's left operand at (k, p, o), contraction index i, is read at (k, p, i). -/
theorem lidx7_eq (k : Fin 27) (p : Fin 60000) (o i : Fin 64) :
    Read.lidx_main_v7 (ix3 k p o) i = ix3 k p i := by
  funext a
  match a with
  | ⟨0, _⟩ => rfl
  | ⟨1, _⟩ => rfl
  | ⟨2, _⟩ => rfl

/-- The product's right operand at (k, p, o), contraction index i, is read at (k, i, o). -/
theorem ridx7_eq (k : Fin 27) (p : Fin 60000) (o i : Fin 64) :
    Read.ridx_main_v7 (ix3 k p o) i = ix3 k i o := by
  funext a
  match a with
  | ⟨0, _⟩ => rfl
  | ⟨1, _⟩ => rfl
  | ⟨2, _⟩ => rfl

/-- The reference's update rows are the specification's. -/
theorem ref_updates (x0 : S200000x64.Idx → EReal) (x1 : S27x64x64.Idx → EReal) (x3 : S27x60000.Idx → BitVec 32) :
    Cert.ReferenceIdeal.Read.val_main_v10 (F := Ideal) x0 x1 x3 = updSpec x0 x1 x3 := by
  funext j
  obtain ⟨r, o, rfl⟩ : ∃ (r : Fin 1620000) (o : Fin 64), j = ix2 r o := ⟨j 0, j 1, eq_ix2 j⟩
  rw [Read.val_main_v10_apply, Read.val_main_v7_apply, idx10_eq]
  show _ = ∑ i : Fin 64, x0 (ix2 (rowOf x3 (offsetOf r) (pairOf r)) i) * x1 (ix3 (offsetOf r) i o)
  refine Finset.sum_congr rfl fun i _ => ?_
  rw [lidx7_eq, ridx7_eq, gathered_apply]

end Cert.ReferenceIdeal.Hand

end
-- ==== Proof.RefValue.lean ====
/-
  The reference's result is the same function of the argument arrays.

  Its update rows are the specification's; its scatter-add is the kernel program's operation on the same zeros and the
  same wrapped out-index column; and its bias, broadcast to [1, 64] and then down the rows, added, and the maximum with
  zero, read at an index, are the bias row added and the cut at zero.
-/
import proofs.«137273_j9268539425513_1_alg».proof.Proof.KernelValue
import proofs.«137273_j9268539425513_1_alg».proof.Proof.RefUpdates
import proofs.«137273_j9268539425513_1_alg».proof.Proof.Gen.ReferenceIdeal.Read

noncomputable section

namespace Cert.ReferenceIdeal.Hand

open Cert.ReferenceIdeal Cert.ReferenceIdeal.Gen Cert.Spec
open Idealize.ShloMosaic Idealize.ShloMosaic.ValueIdx

/-- The reference's result stage is the same function of the arguments: its update rows are `updSpec`, its scatter-add is
    the kernel program's operation on the same zeros and the same wrapped out-index column, and its broadcast add and
    maximum read at an index are the bias row added and the cut at zero. -/
theorem ref_result (x0 : S200000x64.Idx → EReal) (x1 : S27x64x64.Idx → EReal) (x2 : S64.Idx → EReal)
    (x3 x4 : S27x60000.Idx → BitVec 32) :
    Read.val_main_v21 (F := Ideal) x0 x1 x2 x3 x4 = Cert.KernelIdeal.Hand.result x0 x1 x2 x3 x4 := by
  funext j
  rw [Read.val_main_v21_apply, Read.val_main_v20_apply, Read.val_main_call0_v0_apply, Read.val_main_call0_cst_apply,
    Read.val_main_v19_apply, Read.val_main_v18_apply]
  unfold Read.val_main_v17
  rw [ref_updates]
  have hb : Read.idx_main_v18 (Read.idx_main_v19 j) = ix1 (j 1) := funext fun a => Fin.ext (by
    match a with
    | ⟨0, _⟩ => rfl)
  rw [hb]
  rfl

end Cert.ReferenceIdeal.Hand

end
-- ==== Proof.lean ====
/-
  A sparse convolution over 200000 active sites: for each of 27 kernel offsets, 60000 (input site, output site) index
  pairs; the input site's feature row times the offset's 64 x 64 weight matrix is added into the output site's row, a bias
  row is added to every output row, and the result is cut below at zero.

  The kernel program gathers the feature rows on the host (the table and the weights first rounded to bf16, which on
  the extended reals is the identity), multiplies them per offset in a first pallas_call over a 27 x 4 grid of
  [15000, 64] row tiles, scatter-adds the product rows on the host, and adds the bias and cuts at zero in a second
  pallas_call over 20 row tiles. The reference gathers with a rank-3 index, multiplies with one batched contraction,
  scatter-adds, adds the broadcast bias and takes the maximum with zero.

  Both end at `Cert.KernelIdeal.Hand.result` of the argument arrays: their update rows are the same sums of 64
  products (`Cert.Spec.updSpec`), and from there on they apply the same scatter-add, the same bias row and the same
  cut. No sum is regrouped across an infinity, so the precondition is not opened. The three frames are the generated
  ones (the reference's is its generated run with the result dropped); the idealization rewrote nothing.
-/
import proofs.«137273_j9268539425513_1_alg».proof.Defs
import proofs.«137273_j9268539425513_1_alg».proof.Proof.Gen.Kernel
import proofs.«137273_j9268539425513_1_alg».proof.Proof.Gen.Kernel.Skeleton
import proofs.«137273_j9268539425513_1_alg».proof.Proof.Gen.Kernel.Launch
import proofs.«137273_j9268539425513_1_alg».proof.Proof.Gen.Kernel.Points
import proofs.«137273_j9268539425513_1_alg».proof.Proof.Gen.Kernel.Frame
import proofs.«137273_j9268539425513_1_alg».proof.Proof.Gen.KernelIdeal
import proofs.«137273_j9268539425513_1_alg».proof.Proof.Gen.KernelIdeal.Skeleton
import proofs.«137273_j9268539425513_1_alg».proof.Proof.Gen.KernelIdeal.Launch
import proofs.«137273_j9268539425513_1_alg».proof.Proof.Gen.KernelIdeal.Points
import proofs.«137273_j9268539425513_1_alg».proof.Proof.Gen.KernelIdeal.Frame
import proofs.«137273_j9268539425513_1_alg».proof.Proof.Gen.ReferenceIdeal
import proofs.«137273_j9268539425513_1_alg».proof.Proof.Gen.Pre_finite_inputs
import proofs.«137273_j9268539425513_1_alg».proof.Proof.Gen.ReferenceIdeal.Run
import proofs.«137273_j9268539425513_1_alg».proof.Proof.Gen.ReferenceIdeal.Read
import proofs.«137273_j9268539425513_1_alg».proof.Proof.KernelValue
import proofs.«137273_j9268539425513_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end at `result` of those arguments. -/
theorem algebraic : Cert.algebraic_KernelIdeal_ReferenceIdeal := by
  intro m ρ m' ρ' _ hagree
  refine ⟨fun c => Cert.KernelIdeal.Hand.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [e0, e1, e2, e3, e4]
  exact (Cert.ReferenceIdeal.Read.val_main_v21_eq _ _ _ _ _).trans (Cert.ReferenceIdeal.Hand.ref_result _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
